-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S16777216 : Shape := ⟨1, ![16777216]⟩
abbrev S262144 : Shape := ⟨1, ![262144]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x2048x4096 .f32) (main_arg1 : IVec S16777216 32) (main_arg2 : FVec F S262144 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_c_2 : IVec S_ 32 := constantI S_ 32 0#32
  let main_v9 : IVec S16777216 32 := broadcastInDim S16777216 ![] bcast_S_S16777216 main_c_2
  let main_v10 : IVec S16777216 1 := cmpi .sge main_arg1 main_v9
  let main_c_3 : IVec S_ 1 := constantI S_ 1 1#1
  let main_v11 : IVec S_ 1 := (fun x v => Host.reduce IntOp.andi x v reducesTo_S16777216_S_d0 h_S_) main_v10 main_c_3
  let main_v12 : IVec S_ 1 := andi main_v8 main_v11
  let main_c_4 : IVec S_ 32 := constantI S_ 32 16#32
  let main_v13 : IVec S16777216 32 := broadcastInDim S16777216 ![] bcast_S_S16777216 main_c_4
  let main_v14 : IVec S16777216 1 := cmpi .slt main_arg1 main_v13
  let main_c_5 : IVec S_ 1 := constantI S_ 1 1#1
  let main_v15 : IVec S_ 1 := (fun x v => Host.reduce IntOp.andi x v reducesTo_S16777216_S_d0 h_S_) main_v14 main_c_5
  fn_part1 (F := F) main_v12 main_v15
-- ==== Kernel.lean ====
abbrev S8x2048x4096 : Shape := ⟨3, ![8, 2048, 4096]⟩
abbrev S16777216 : Shape := ⟨1, ![16777216]⟩
abbrev S262144 : Shape := ⟨1, ![262144]⟩
abbrev S16384x4096 : Shape := ⟨2, ![16384, 4096]⟩
abbrev S4096x4096 : Shape := ⟨2, ![4096, 4096]⟩
abbrev S4096x64 : Shape := ⟨2, ![4096, 64]⟩
abbrev S4096x64x64 : Shape := ⟨3, ![4096, 64, 64]⟩
abbrev S1024x512 : Shape := ⟨2, ![1024, 512]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S16777216, .i32⟩
  | .hbm, ⟨2, _⟩ => ⟨S262144, .f32⟩
  | .hbm, ⟨3, _⟩ => ⟨S16384x4096, .f32⟩
  | .hbm, ⟨4, _⟩ => ⟨S4096x4096, .i32⟩
  | .hbm, ⟨5, _⟩ => ⟨S4096x64, .f32⟩
  | .hbm, ⟨6, _⟩ => ⟨S4096x64x64, .f32⟩
  | .hbm, ⟨7, _⟩ => ⟨S4096x4096, .f32⟩
  | .hbm, ⟨8, _⟩ => ⟨S16384x4096, .f32⟩
  | .hbm, ⟨9, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32_28 : BitVec 32 := 7#32
  let v83 : BitVec 1 := Scalar.cmpi .eq arg2 c7_i32_28
  let v84 : BitVec 32 := Scalar.extui v83
  let c0_i32_29 : BitVec 32 := 0#32
  let v85 : BitVec 1 := Scalar.cmpi .ne v84 c0_i32_29
  v85

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  shapeCasts_S16777216_S4096x4096 : S16777216.ShapeCasts S4096x4096
  shapeCasts_S262144_S4096x64 : S262144.ShapeCasts S4096x64
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  shapeCasts_S16384x4096_S8x2048x4096 : S16384x4096.ShapeCasts S8x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S16777216 : Shape := ⟨1, ![16777216]⟩
abbrev S262144 : Shape := ⟨1, ![262144]⟩
abbrev S16 : Shape := ⟨1, ![16]⟩
abbrev S_ : Shape := ⟨0, ![]⟩
abbrev S16777216x1 : Shape := ⟨2, ![16777216, 1]⟩
abbrev S262144x64 : Shape := ⟨2, ![262144, 64]⟩
abbrev S262144x1 : Shape := ⟨2, ![262144, 1]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16777216, .i32⟩
  | .hbm, ⟨2, _⟩ => ⟨S262144, .f32⟩
  | .hbm, ⟨3, _⟩ => ⟨S16, .f32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S262144x64, .f32⟩
  | .hbm, ⟨14, _⟩ => ⟨S262144x1, .f32⟩
  | .hbm, ⟨15, _⟩ => ⟨S262144x64, .f32⟩
  | .hbm, ⟨16, _⟩ => ⟨S262144x64, .f32⟩
  | .hbm, ⟨17, _⟩ => ⟨S4096x4096, .f32⟩
  | .hbm, ⟨18, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S262144x64 : S16777216.ShapeCasts S262144x64
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  gather_S16_S16777216x1_S16777216_n_0_n_n_0_1_1_wf : GatherDims.WF S16 S16777216x1 S16777216 [] [0] [] [0] [] 1 ![1]
  dot_S8x2048x4096_S4096x4096_S8x2048x4096_2_1_01_0_n_n_wf : DotDims.WF S8x2048x4096 S4096x4096 S8x2048x4096 [2] [1] [0, 1] [0] [] []

variable [Facts₀]

def gather_S16_S16777216x1_S16777216_n_0_n_n_0_1_1 : GatherDims S16 S16777216x1 S16777216 where
  offsetDims := []
  collapsedSliceDims := [0]
  operandBatchingDims := []
  startIndicesBatchingDims := []
  startIndexMap := [0]
  indexVectorDim := 1
  sliceSizes := ![1]
  wf := gather_S16_S16777216x1_S16777216_n_0_n_n_0_1_1_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Domain.lean ====
/-
  The codes' range, read out of the precondition: every entry of the code array lies in `0 .. 15`.
-/
import proofs.«400980_j12481174962914_1_alg».proof.Pre_finite_inputs
import proofs.«400980_j12481174962914_1_alg».proof.Proof.Gen.Pre_finite_inputs
import Idealize.ShloMosaic.PureOps.Ideal
import Idealize.ShloMosaic.Lib.ReduceAll
import Idealize.ShloMosaic.Lib.ValueIdx

noncomputable section

namespace Cert.Domain

open Idealize.ShloMosaic

/-- The rank-0 shape has one index: two of them agree at every axis, there being none. -/
instance subsingleton_scalar_idx : Subsingleton Cert.Pre_finite_inputs.S_.Idx :=
  ⟨fun _ _ => funext fun d => d.elim0⟩

/-- The word `0` reads `0` signed and the word `16` reads `16`. -/
theorem toInt_zero32 : (0#32 : BitVec 32).toInt = 0 := by decide
theorem toInt_sixteen32 : (16#32 : BitVec 32).toInt = 16 := by decide

/-- Where the precondition holds of the three argument arrays, every code word, read as a signed integer, is at least
    `0` and below `16`. The precondition is a conjunction of four "all entries" tests, each a reduction by `and` of a
    bit array into one bit; the last two test `q ≥ 0` and `q < 16` entrywise against a broadcast constant. The conjunction
    being `1` makes each reduction `1`, a reduction by `and` being `1` makes every entry `1`, and a signed comparison bit
    being `1` is the order of the signed readings. -/
theorem code_range (x : FVec Ideal Cert.Pre_finite_inputs.S8x2048x4096 .f32) (q : IVec Cert.Pre_finite_inputs.S16777216 32)
    (a : FVec Ideal Cert.Pre_finite_inputs.S262144 .f32)
    (h : Cert.Pre_finite_inputs.fn (F := Ideal) x q a = fun _ => 1#1) :
    ∀ i, 0 ≤ (q i).toInt ∧ (q i).toInt < 16 := by
  intro i
  have h0 := congrFun h ValueIdx.ix0
  dsimp only [Cert.Pre_finite_inputs.fn, Cert.Pre_finite_inputs.fn_part1] at h0
  -- the outer conjunction: (finiteness ∧ finiteness ∧ 0 ≤ q) ∧ q < 16
  obtain ⟨h12, h15⟩ := IntOp.andi_eq_one.1 h0
  -- the inner one: (finiteness ∧ finiteness) ∧ 0 ≤ q
  obtain ⟨_, h11⟩ := IntOp.andi_eq_one.1 h12
  -- each "all entries" bit gives the entry's bit at i
  have hge := Host.reduce_andi_all _ _ _ _ _ h11 i
  have hlt := Host.reduce_andi_all _ _ _ _ _ h15 i
  -- a signed comparison bit is the order of the signed readings; the broadcast constant reads 0, resp. 16, at every index
  have hge' : (0#32 : BitVec 32).toInt ≤ (q i).toInt := IntOp.cmpi_sge.1 hge
  have hlt' : (q i).toInt < (16#32 : BitVec 32).toInt := IntOp.cmpi_slt.1 hlt
  rw [toInt_zero32] at hge'
  rw [toInt_sixteen32] at hlt'
  exact ⟨hge', hlt'⟩

end Cert.Domain

end
-- ==== Proof.Spec.lean ====
/-
  The specification of the 4-bit (NF4) quantized linear layer, as ONE function of the three argument arrays over the
  extended reals.

  A weight entry is stored as a 4-bit code `q` into a fixed sixteen-entry codebook, together with one scale per run of 64
  consecutive entries ("absmax"): the dequantized weight at row `o`, column `i` of the 4096 x 4096 matrix is
  `code[q[4096 o + i]] * absmax[64 o + i / 64]`, and the layer is `y[b, s, o] = sum_i x[b, s, i] * W[o, i]`.
  The code word is read signed and clamped into `0 .. 15`, which is how an array lookup reads an index; on the codes'
  own range `0 <= q < 16` nothing is clamped.
-/
import Idealize.ShloMosaic.PureOps.Ideal
import Idealize.ShloMosaic.Lib.ValueIdx

noncomputable section

open scoped BigOperators

namespace Cert.Spec

open Idealize.ShloMosaic Idealize.ShloMosaic.ValueIdx

/-- The sixteen codebook values as f32 words, by code: the NF4 quantiles from `-1` to `1`, code 7 being `0`. -/
abbrev codeWord : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- The codebook value a 32-bit code word selects: the word read as a signed integer and clamped into `0 .. 15`. -/
def codeAt (w : BitVec 32) : EReal :=
  Ideal.ofBits .f32 (codeWord ⟨min w.toInt.toNat 15, by omega⟩)

/-- The dequantized weight at row `o`, column `i`: the code's value times the scale of its run of 64 entries. -/
def weight (q : (⟨1, ![16777216]⟩ : Shape).Idx → BitVec 32) (a : (⟨1, ![262144]⟩ : Shape).Idx → EReal)
    (o i : Fin 4096) : EReal :=
  codeAt (q (ix1 ⟨4096 * o.val + i.val, by have := o.isLt; have := i.isLt; omega⟩))
    * a (ix1 ⟨64 * o.val + i.val / 64, by have := o.isLt; have := i.isLt; omega⟩)

/-- One entry of the layer's result: row `(b, s)` of `x` against row `o` of the dequantized weight. -/
def out (x : (⟨3, ![8, 2048, 4096]⟩ : Shape).Idx → EReal) (q : (⟨1, ![16777216]⟩ : Shape).Idx → BitVec 32)
    (a : (⟨1, ![262144]⟩ : Shape).Idx → EReal) (b : Fin 8) (s : Fin 2048) (o : Fin 4096) : EReal :=
  ∑ i : Fin 4096, x (ix3 b s i) * weight q a o i

/-- The whole result array as a function of the three argument arrays. -/
def G (x : (⟨3, ![8, 2048, 4096]⟩ : Shape).Idx → EReal) (q : (⟨1, ![16777216]⟩ : Shape).Idx → BitVec 32)
    (a : (⟨1, ![262144]⟩ : Shape).Idx → EReal) : (⟨3, ![8, 2048, 4096]⟩ : Shape).Idx → EReal :=
  fun j => out x q a (j 0) (j 1) (j 2)

end Cert.Spec

end
-- ==== Proof.RefValue.lean ====
/-
  The reference program's run, read as a value: its result array is the specification's function of its arguments.
-/
import proofs.«400980_j12481174962914_1_alg».proof.ReferenceIdeal
import proofs.«400980_j12481174962914_1_alg».proof.Proof.Gen.ReferenceIdeal
import proofs.«400980_j12481174962914_1_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws
import Mathlib.Algebra.BigOperators.Group.Finset.Basic

noncomputable section

namespace Cert.RefValue

open Cert.ReferenceIdeal Cert.ReferenceIdeal.Gen Idealize.ShloMosaic Idealize.ShloMosaic.TcCoe Idealize.SL.Sem

/-! ## The reference's seventeen operations, and its run read back -/

section Run

open Idealize.ShloMosaic.StableHlo

variable {F : FTy → Type} [FloatOps F]

/-- The reference's seventeen operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S16777216 ![] bcast_S_S16777216 : (⟨S_, .i32⟩ : BufTy).Contents (Elt F) → (⟨S16777216, .i32⟩ : BufTy).Contents (Elt F)),
    binary main_arg1 main_v0 main_v1 (cmpi .slt : (⟨S16777216, .i32⟩ : BufTy).Contents (Elt F) → (⟨S16777216, .i32⟩ : BufTy).Contents (Elt F) → (⟨S16777216, .i1⟩ : BufTy).Contents (Elt F)),
    nullary main_c_0 (constantI S_ 32 16#32),
    unary main_c_0 main_v2 (broadcastInDim S16777216 ![] bcast_S_S16777216 : (⟨S_, .i32⟩ : BufTy).Contents (Elt F) → (⟨S16777216, .i32⟩ : BufTy).Contents (Elt F)),
    binary main_arg1 main_v2 main_v3 (addi : (⟨S16777216, .i32⟩ : BufTy).Contents (Elt F) → (⟨S16777216, .i32⟩ : BufTy).Contents (Elt F) → (⟨S16777216, .i32⟩ : BufTy).Contents (Elt F)),
    ternary main_v1 main_v3 main_arg1 main_v4 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v4 main_v5 (broadcastInDim S16777216x1 ![0] bcast_S16777216_S16777216x1_0 : (⟨S16777216, .i32⟩ : BufTy).Contents (Elt F) → (⟨S16777216x1, .i32⟩ : BufTy).Contents (Elt F)),
    binary main_cst main_v5 main_v6 ((fun x i => Host.gather gather_S16_S16777216x1_S16777216_n_0_n_n_0_1_1 x i) : (⟨S16, .f32⟩ : BufTy).Contents (Elt F) → (⟨S16777216x1, .i32⟩ : BufTy).Contents (Elt F) → (⟨S16777216, .f32⟩ : BufTy).Contents (Elt F)),
    reshape main_v6 main_v7 rfl shapeCasts_S16777216_S262144x64,
    unary main_arg2 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x64 ![0, 1] bcast_S262144x1_S262144x64_0_1 : (⟨S262144x1, .f32⟩ : BufTy).Contents (Elt F) → (⟨S262144x64, .f32⟩ : BufTy).Contents (Elt F)),
    binary main_v7 main_v9 main_v10 (mulf : (⟨S262144x64, .f32⟩ : BufTy).Contents (Elt F) → (⟨S262144x64, .f32⟩ : BufTy).Contents (Elt F) → (⟨S262144x64, .f32⟩ : BufTy).Contents (Elt F)),
    reshape main_v10 main_v11 rfl shapeCasts_S262144x64_S4096x4096,
    binary main_arg0 main_v11 main_v12 ((fun l r => Host.dotGeneral dot_S8x2048x4096_S4096x4096_S8x2048x4096_2_1_01_0_n_n none l r) : (⟨S8x2048x4096, .f32⟩ : BufTy).Contents (Elt F) → (⟨S4096x4096, .f32⟩ : BufTy).Contents (Elt F) → (⟨S8x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., reshape_bufs_sub .., unary_bufs_sub ..,
   unary_bufs_sub .., binary_bufs_sub .., reshape_bufs_sub .., binary_bufs_sub ..⟩

/-- The code array as the lookup reads it: a negative code moved up by sixteen, any other kept. -/
def wrapped (q : (⟨S16777216, .i32⟩ : BufTy).Contents (Elt F)) : (⟨S16777216, .i32⟩ : BufTy).Contents (Elt F) :=
  select (cmpi .slt q (broadcastInDim S16777216 ![] bcast_S_S16777216 (constantI S_ 32 0#32)))
    (addi q (broadcastInDim S16777216 ![] bcast_S_S16777216 (constantI S_ 32 16#32))) q

/-- The codebook values the wrapped codes select, one per weight entry in flat order. -/
def looked (q : (⟨S16777216, .i32⟩ : BufTy).Contents (Elt F)) : (⟨S16777216, .f32⟩ : BufTy).Contents (Elt F) :=
  Host.gather gather_S16_S16777216x1_S16777216_n_0_n_n_0_1_1
    (fun i => FloatOps.ofBits .f32 (lit0 (S16.rowMajor i)) : (⟨S16, .f32⟩ : BufTy).Contents (Elt F))
    (broadcastInDim S16777216x1 ![0] bcast_S16777216_S16777216x1_0 (wrapped q))

/-- The dequantized weight matrix: looked-up values in runs of 64, each run times its scale, laid out 4096 by 4096. -/
def weights (q : (⟨S16777216, .i32⟩ : BufTy).Contents (Elt F)) (a : (⟨S262144, .f32⟩ : BufTy).Contents (Elt F)) :
    (⟨S4096x4096, .f32⟩ : BufTy).Contents (Elt F) :=
  shapeCast S4096x4096
    (mulf (shapeCast S262144x64 (looked q) shapeCasts_S16777216_S262144x64 : (⟨S262144x64, .f32⟩ : BufTy).Contents (Elt F))
      (broadcastInDim S262144x64 ![0, 1] bcast_S262144x1_S262144x64_0_1
        (broadcastInDim S262144x1 ![0] bcast_S262144_S262144x1_0 a)))
    shapeCasts_S262144x64_S4096x4096

/-- The reference's result as a term of its three arguments: the contraction of `x` with the weight matrix. -/
def refTerm (x : (⟨S8x2048x4096, .f32⟩ : BufTy).Contents (Elt F)) (q : (⟨S16777216, .i32⟩ : BufTy).Contents (Elt F))
    (a : (⟨S262144, .f32⟩ : BufTy).Contents (Elt F)) : (⟨S8x2048x4096, .f32⟩ : BufTy).Contents (Elt F) :=
  Host.dotGeneral dot_S8x2048x4096_S4096x4096_S8x2048x4096_2_1_01_0_n_n none x (weights q a)

/-- From any memory with zero counters: every weakly fair execution of the reference terminates with its result at
    `refTerm` of the three arguments' launch contents, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Run

/-! ## The reference's term is the specification, entry by entry -/

section Term

open Idealize.ShloMosaic.ValueIdx Idealize.ShloMosaic.StableHlo.Predicate
open scoped BigOperators

/-! ### The contraction: which entries of its operands the product reads -/

theorem lhs_axis0 (i : S8x2048x4096.Idx) (k : dot_S8x2048x4096_S4096x4096_S8x2048x4096_2_1_01_0_n_n.contr.Idx) :
    (dot_S8x2048x4096_S4096x4096_S8x2048x4096_2_1_01_0_n_n.lhsIdx i k 0).val = (i 0).val := by
  unfold DotDims.lhsIdx
  rw [dif_neg (show ¬(0 : Fin S8x2048x4096.rank) ∈ dot_S8x2048x4096_S4096x4096_S8x2048x4096_2_1_01_0_n_n.lhsBatch by decide),
    dif_pos (show (0 : Fin S8x2048x4096.rank) ∈ dot_S8x2048x4096_S4096x4096_S8x2048x4096_2_1_01_0_n_n.lhsNonContracting by decide)]
  rfl

theorem lhs_axis1 (i : S8x2048x4096.Idx) (k : dot_S8x2048x4096_S4096x4096_S8x2048x4096_2_1_01_0_n_n.contr.Idx) :
    (dot_S8x2048x4096_S4096x4096_S8x2048x4096_2_1_01_0_n_n.lhsIdx i k 1).val = (i 1).val := by
  unfold DotDims.lhsIdx
  rw [dif_neg (show ¬(1 : Fin S8x2048x4096.rank) ∈ dot_S8x2048x4096_S4096x4096_S8x2048x4096_2_1_01_0_n_n.lhsBatch by decide),
    dif_pos (show (1 : Fin S8x2048x4096.rank) ∈ dot_S8x2048x4096_S4096x4096_S8x2048x4096_2_1_01_0_n_n.lhsNonContracting by decide)]
  rfl

theorem lhs_axis2 (i : S8x2048x4096.Idx) (k : dot_S8x2048x4096_S4096x4096_S8x2048x4096_2_1_01_0_n_n.contr.Idx) :
    (dot_S8x2048x4096_S4096x4096_S8x2048x4096_2_1_01_0_n_n.lhsIdx i k 2).val = (k ⟨0, by decide⟩).val :=
  dot_S8x2048x4096_S4096x4096_S8x2048x4096_2_1_01_0_n_n.lhsIdx_val_of_single rfl i k

theorem rhs_axis0 (i : S8x2048x4096.Idx) (k : dot_S8x2048x4096_S4096x4096_S8x2048x4096_2_1_01_0_n_n.contr.Idx) :
    (dot_S8x2048x4096_S4096x4096_S8x2048x4096_2_1_01_0_n_n.rhsIdx i k 0).val = (i 2).val := by
  unfold DotDims.rhsIdx
  rw [dif_neg (show ¬(0 : Fin S4096x4096.rank) ∈ dot_S8x2048x4096_S4096x4096_S8x2048x4096_2_1_01_0_n_n.rhsBatch by decide),
    dif_pos (show (0 : Fin S4096x4096.rank) ∈ dot_S8x2048x4096_S4096x4096_S8x2048x4096_2_1_01_0_n_n.rhsNonContracting by decide)]
  rfl

theorem rhs_axis1 (i : S8x2048x4096.Idx) (k : dot_S8x2048x4096_S4096x4096_S8x2048x4096_2_1_01_0_n_n.contr.Idx) :
    (dot_S8x2048x4096_S4096x4096_S8x2048x4096_2_1_01_0_n_n.rhsIdx i k 1).val = (k ⟨0, by decide⟩).val :=
  dot_S8x2048x4096_S4096x4096_S8x2048x4096_2_1_01_0_n_n.rhsIdx_val_of_single rfl i k

/-- The result at `(b, s, o)` is row `(b, s)` of `x` against row `o` of the weight matrix. -/
theorem refTerm_apply (x : FVec Ideal S8x2048x4096 .f32) (q : IVec S16777216 32) (a : FVec Ideal S262144 .f32)
    (b : Fin 8) (s : Fin 2048) (o : Fin 4096) :
    refTerm (F := Ideal) x q a (ix3 b s o) = ∑ i : Fin 4096, x (ix3 b s i) * weights (F := Ideal) q a (ix2 o i) := by
  unfold refTerm
  simp only [Host.dotGeneral]
  rw [Ideal.dotGeneral_apply,
    ← Equiv.sum_comp (contrEquiv1 dot_S8x2048x4096_S4096x4096_S8x2048x4096_2_1_01_0_n_n 4096 rfl rfl).symm]
  refine Finset.sum_congr rfl fun k _ => ?_
  have hk := contrEquiv1_symm_val dot_S8x2048x4096_S4096x4096_S8x2048x4096_2_1_01_0_n_n 4096 rfl rfl k
  have el : dot_S8x2048x4096_S4096x4096_S8x2048x4096_2_1_01_0_n_n.lhsIdx (ix3 b s o)
      ((contrEquiv1 dot_S8x2048x4096_S4096x4096_S8x2048x4096_2_1_01_0_n_n 4096 rfl rfl).symm k) = ix3 b s k :=
    funext fun ax => Fin.ext (by
      match ax with
      | ⟨0, _⟩ => exact lhs_axis0 _ _
      | ⟨1, _⟩ => exact lhs_axis1 _ _
      | ⟨2, _⟩ => exact (lhs_axis2 _ _).trans hk)
  have er : dot_S8x2048x4096_S4096x4096_S8x2048x4096_2_1_01_0_n_n.rhsIdx (ix3 b s o)
      ((contrEquiv1 dot_S8x2048x4096_S4096x4096_S8x2048x4096_2_1_01_0_n_n 4096 rfl rfl).symm k) = ix2 o k :=
    funext fun ax => Fin.ext (by
      match ax with
      | ⟨0, _⟩ => exact rhs_axis0 _ _
      | ⟨1, _⟩ => exact (rhs_axis1 _ _).trans hk)
  rw [el, er]

/-! ### The lookup: a code in range selects its own codebook entry -/

/-- A word that reads as a non-negative integer is not below zero in the signed order. -/
theorem slt_zero_of_nonneg (w : BitVec 32) (h : 0 ≤ w.toInt) : IntOp.cmpi .slt w 0#32 = 0#1 := by
  have hs : w.slt 0#32 = false := by
    rw [BitVec.slt, BitVec.toInt_zero]
    exact decide_eq_false (not_lt.mpr h)
  show BitVec.ofBool (w.slt 0#32) = 0#1
  rw [hs]; rfl

/-- A non-negative code is not moved: the wrapped array reads the code itself there. -/
theorem wrapped_apply (q : IVec S16777216 32) (i : S16777216.Idx) (h : 0 ≤ (q i).toInt) :
    wrapped (F := Ideal) q i = q i := by
  show Scalar.select (IntOp.cmpi .slt (q i) 0#32) (IntOp.addi (q i) 16#32) (q i) = q i
  rw [slt_zero_of_nonneg _ h, select_zero]

/-- The rank-1 index at a coordinate, in its two spellings. -/
theorem ix1_eq_ofFin {n : Nat} (p : Fin n) : ix1 p = Shape.Idx.ofFin p := by
  funext d; match d with | ⟨0, _⟩ => rfl

/-- The program's codebook table is the specification's. -/
theorem lit0_eq_codeWord : lit0 = Cert.Spec.codeWord := by
  funext k; fin_cases k <;> rfl

/-- The looked-up value at flat position `p`: the codebook entry of the wrapped code there, read signed and clamped. -/
theorem looked_apply (q : IVec S16777216 32) (p : Fin 16777216) :
    looked (F := Ideal) q (ix1 p) = Cert.Spec.codeAt (wrapped (F := Ideal) q (ix1 p)) := by
  have hb : broadcastInDim S16777216x1 ![0] bcast_S16777216_S16777216x1_0 (wrapped (F := Ideal) q) (ixP p)
      = wrapped (F := Ideal) q (Shape.Idx.ofFin p) := bcast_col1 _ _ p
  unfold looked
  rw [ix1_eq_ofFin,
    gather_take gather_S16_S16777216x1_S16777216_n_0_n_n_0_1_1 rfl rfl rfl rfl _ _ p (by decide)]
  unfold Cert.Spec.codeAt
  rw [← lit0_eq_codeWord]
  show Ideal.ofBits .f32 (lit0 (S16.rowMajor (Shape.Idx.ofFin _))) = _
  refine congrArg (fun k => Ideal.ofBits .f32 (lit0 k)) (Fin.ext ?_)
  rw [Shape.rowMajor_val_one]
  show min _ (16 - 1) = min _ 15
  rw [hb]

/-! ### The weight matrix: the two reshapes and the scale's broadcast, at an entry -/

/-- Entry `(o, i)` of the weight matrix is flat position `4096 o + i`: the looked-up value there, times the scale of
    its run of 64, which is run `64 o + i / 64`. -/
theorem weights_apply (q : IVec S16777216 32) (a : FVec Ideal S262144 .f32) (o i : Fin 4096) :
    weights (F := Ideal) q a (ix2 o i)
      = looked (F := Ideal) q (ix1 ⟨4096 * o.val + i.val, by have := o.isLt; have := i.isLt; omega⟩)
        * a (ix1 ⟨64 * o.val + i.val / 64, by have := o.isLt; have := i.isLt; omega⟩) := by
  have ho := o.isLt
  have hi := i.isLt
  have hp : 4096 * o.val + i.val < 16777216 := by omega
  have hr : (4096 * o.val + i.val) / 64 < 262144 := by omega
  have hc : (4096 * o.val + i.val) % 64 < 64 := by omega
  unfold weights
  rw [shapeCast_apply _ _ (ix2 o i) (ij ⟨(4096 * o.val + i.val) / 64, hr⟩ ⟨(4096 * o.val + i.val) % 64, hc⟩) (by
    rw [Shape.rowMajor_val_two, Shape.rowMajor_val_two]
    show (4096 * o.val + i.val) / 64 * 64 + (4096 * o.val + i.val) % 64 = o.val * 4096 + i.val
    omega)]
  rw [mulf_apply, bcast_rows]
  rw [shapeCast_apply _ _ (ij ⟨(4096 * o.val + i.val) / 64, hr⟩ ⟨(4096 * o.val + i.val) % 64, hc⟩)
    (ix1 ⟨4096 * o.val + i.val, hp⟩) (by
    rw [Shape.rowMajor_val_one, Shape.rowMajor_val_two]
    show 4096 * o.val + i.val = (4096 * o.val + i.val) / 64 * 64 + (4096 * o.val + i.val) % 64
    omega)]
  rw [← ix1_eq_ofFin]
  refine congrArg (fun k => looked (F := Ideal) q (ix1 ⟨4096 * o.val + i.val, hp⟩) * a (ix1 k)) (Fin.ext ?_)
  show (4096 * o.val + i.val) / 64 = 64 * o.val + i.val / 64
  omega

/-! ### The whole result -/

/-- With no code negative, the reference's term is the specification's function of the same three arrays. -/
theorem refTerm_eq_G (x : FVec Ideal S8x2048x4096 .f32) (q : IVec S16777216 32) (a : FVec Ideal S262144 .f32)
    (hq : ∀ i, 0 ≤ (q i).toInt) : refTerm (F := Ideal) x q a = Cert.Spec.G x q a := by
  funext j
  obtain ⟨b, s, o, rfl⟩ : ∃ (b : Fin 8) (s : Fin 2048) (o : Fin 4096), j = ix3 b s o := ⟨j 0, j 1, j 2, eq_ix3 j⟩
  rw [refTerm_apply]
  show _ = Cert.Spec.out x q a b s o
  unfold Cert.Spec.out
  refine Finset.sum_congr rfl fun i _ => ?_
  rw [weights_apply, looked_apply, wrapped_apply _ _ (hq _)]
  rfl

end Term

/-- From any memory whose code array lies in `0 .. 15`: every weakly fair execution of the reference terminates with its
    result array at the specification's function of the three argument arrays, and the arguments unchanged. -/
theorem run (m : (ℓ : Loc nD τ sig) → Buf (Elt Ideal) ℓ) (ρ : Dev nD → PrngReg)
    (hq : ∀ (c : Dev nD) i, 0 ≤ ((m ((c.tc : Thread nD τ).loc main_arg1) : IVec S16777216 32) i).toInt
      ∧ ((m ((c.tc : Thread nD τ).loc main_arg1) : IVec S16777216 32) i).toInt < 16) :
    θ_run (defs (F := Ideal)) (onTc (τ := τ) (main (F := Ideal))) ⟨m, fun _ => 0, ρ⟩ fun r => ∀ c : Dev nD,
      r.2.mem ((c.tc : Thread nD τ).loc main_v12)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (run_term (F := Ideal) m ρ)
  obtain ⟨hres, h0, h1, h2⟩ := h c
  exact ⟨hres.trans (refTerm_eq_G _ _ _ fun i => (hq c i).1), h0, h1, h2⟩

end Cert.RefValue

end
-- ==== Proof.KernelPieces.lean ====
/-
  What the kernel body leaves in its accumulator and in the output block, per control case, as the body's arithmetic
  applied to the blocks it loads: every case's stores cover the buffer whole, and every load reads a whole buffer.
-/
import proofs.«400980_j12481174962914_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- What one grid point adds. -/
abbrev step (x0 : Vec F S1024x512 .f32) (x1 : Vec F S1024x512 .i32) (x2 : Vec F S1024x512 .f32)
    (acc : Vec F S1024x1024 .f32) : Vec F S1024x1024 .f32 :=
  k0_pay1 (k0_pay6 (k0_pay3 x1) (k0_pay4 x1) (k0_pay5 x1) x2) x0 acc

/-- A middle point (neither first nor last of its run of eight): the accumulator holding `xs0` is left at `xs0` plus the
    point's product — the body's one store into it covers it, and its loads read whole buffers. -/
theorem sout_B (c : Dev nD) (i : grid0.Coords) (a3 : Memref sig .tc .vmem S1024x512 .f32) (h3 : a3.IsWhole)
    (a4 : Memref sig .tc .vmem S1024x512 .i32) (h4 : a4.IsWhole) (a5 : Memref sig .tc .vmem S1024x512 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 : Vec F S1024x512 .f32) (x1 : Vec F S1024x512 .i32) (x2 : Vec F S1024x512 .f32)
    (xs0 : Vec F S1024x1024 .f32) :
    sout0_B_0 c i a3 h3 a4 h4 a5 h5 a6 h6 a7 h7 hc0 hc1 x0 x1 x2 xs0 = step x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h5.read_unread, h7.read_unread,
    View.ld_unit_zero (S := S1024x512) hz, View.ld_unit_zero (S := S1024x1024) hz]

/-- The last point of a run of eight leaves the accumulator the same way … -/
theorem sout_C (c : Dev nD) (i : grid0.Coords) (a3 : Memref sig .tc .vmem S1024x512 .f32) (h3 : a3.IsWhole)
    (a4 : Memref sig .tc .vmem S1024x512 .i32) (h4 : a4.IsWhole) (a5 : Memref sig .tc .vmem S1024x512 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 : Vec F S1024x512 .f32) (x1 : Vec F S1024x512 .i32) (x2 : Vec F S1024x512 .f32)
    (xs0 : Vec F S1024x1024 .f32) :
    sout0_C_0 c i a3 h3 a4 h4 a5 h5 a6 h6 a7 h7 hc0 hc1 x0 x1 x2 xs0 = step x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x512) hz, View.ld_unit_zero (S := S1024x1024) hz]

/-- … and copies it into the output block: the block holds the accumulator's new contents (the copy's load reads back
    the store just made). -/
theorem out_C (c : Dev nD) (i : grid0.Coords) (a3 : Memref sig .tc .vmem S1024x512 .f32) (h3 : a3.IsWhole)
    (a4 : Memref sig .tc .vmem S1024x512 .i32) (h4 : a4.IsWhole) (a5 : Memref sig .tc .vmem S1024x512 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 : Vec F S1024x512 .f32) (x1 : Vec F S1024x512 .i32) (x2 : Vec F S1024x512 .f32)
    (xs0 : Vec F S1024x1024 .f32) :
    out0_C_3 c i a3 h3 a4 h4 a5 h5 a6 h6 a7 h7 hc0 hc1 x0 x1 x2 xs0 = step x0 x1 x2 xs0 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x512) hz, View.ld_unit_zero (S := S1024x1024) hz,
    View.readCov_unit_zero (S := S1024x1024) _ hz]

/-- The first point of a run of eight resets the accumulator to zero, reads the zero back, and leaves zero plus the
    point's product. -/
theorem sout_A (c : Dev nD) (i : grid0.Coords) (a3 : Memref sig .tc .vmem S1024x512 .f32) (h3 : a3.IsWhole)
    (a4 : Memref sig .tc .vmem S1024x512 .i32) (h4 : a4.IsWhole) (a5 : Memref sig .tc .vmem S1024x512 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 : Vec F S1024x512 .f32) (x1 : Vec F S1024x512 .i32) (x2 : Vec F S1024x512 .f32) :
    sout0_A_0 c i a3 h3 a4 h4 a5 h5 a6 h6 a7 h7 hc0 hc1 x0 x1 x2 = step x0 x1 x2 (k0_pay2 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h7.read_unread,
    View.ld_unit_zero (S := S1024x512) hz, View.ld_unit_zero (S := S1024x1024) hz]

end Cert.KernelIdeal.Pieces

end
-- ==== Proof.Cascade.lean ====
/-
  The kernel's codebook lookup without a lookup: sixteen selects in a row, the `k`-th replacing the running value by the
  codebook's `k`-th entry where the code equals `k`, over a start value of zero. On a code in `0 .. 15` exactly one select
  fires, and the result is the codebook entry the code names; on any other code none fires and zero is left (where an array
  lookup would clamp): the two agree on the codes' range and nowhere else.
-/
import Idealize.ShloMosaic.PureOps.Ideal
import proofs.«400980_j12481174962914_1_alg».proof.Proof.Spec

noncomputable section

namespace Cert.Spec

open Idealize.ShloMosaic

/-- The cascade of sixteen selects on a code word `w`, innermost first: code 0, then 1, … then 15. -/
def cascade (w : BitVec 32) : EReal :=
  Scalar.select (IntOp.cmpi .eq w 15#32) (Ideal.ofBits .f32 0x3F800000#32)
    (Scalar.select (IntOp.cmpi .eq w 14#32) (Ideal.ofBits .f32 0x3F3913B3#32)
    (Scalar.select (IntOp.cmpi .eq w 13#32) (Ideal.ofBits .f32 0x3F1007AB#32)
    (Scalar.select (IntOp.cmpi .eq w 12#32) (Ideal.ofBits .f32 0x3EE1A4B8#32)
    (Scalar.select (IntOp.cmpi .eq w 11#32) (Ideal.ofBits .f32 0x3EAD033A#32)
    (Scalar.select (IntOp.cmpi .eq w 10#32) (Ideal.ofBits .f32 0x3E7C04DD#32)
    (Scalar.select (IntOp.cmpi .eq w 9#32) (Ideal.ofBits .f32 0x3E24CAE3#32)
    (Scalar.select (IntOp.cmpi .eq w 8#32) (Ideal.ofBits .f32 0x3DA2FAFF#32)
    (Scalar.select (IntOp.cmpi .eq w 7#32) (Ideal.ofBits .f32 0x00000000#32)
    (Scalar.select (IntOp.cmpi .eq w 6#32) (Ideal.ofBits .f32 0xBDBA7871#32)
    (Scalar.select (IntOp.cmpi .eq w 5#32) (Ideal.ofBits .f32 0xBE3D353F#32)
    (Scalar.select (IntOp.cmpi .eq w 4#32) (Ideal.ofBits .f32 0xBE91A24D#32)
    (Scalar.select (IntOp.cmpi .eq w 3#32) (Ideal.ofBits .f32 0xBECA32A0#32)
    (Scalar.select (IntOp.cmpi .eq w 2#32) (Ideal.ofBits .f32 0xBF066B30#32)
    (Scalar.select (IntOp.cmpi .eq w 1#32) (Ideal.ofBits .f32 0xBF3239B1#32)
    (Scalar.select (IntOp.cmpi .eq w 0#32) (Ideal.ofBits .f32 0xBF800000#32)
    (Ideal.ofBits .f32 0x00000000#32))))))))))))))))

/-- A word whose signed reading lies in `0 .. 15` is one of the sixteen small words. -/
theorem word_of_range (w : BitVec 32) (h0 : 0 ≤ w.toInt) (h1 : w.toInt < 16) :
    ∃ n : ℕ, n < 16 ∧ w = BitVec.ofNat 32 n := by
  refine ⟨w.toNat, ?_, by simp⟩
  have := w.isLt
  rw [BitVec.toInt_eq_toNat_cond] at h0 h1
  split at h1 <;> omega

/-- On the codes' range the cascade is the codebook lookup. -/
theorem cascade_eq (w : BitVec 32) (h0 : 0 ≤ w.toInt) (h1 : w.toInt < 16) : cascade w = codeAt w := by
  obtain ⟨n, hn, rfl⟩ := word_of_range w h0 h1
  interval_cases n <;> rfl

end Cert.Spec

end
-- ==== Proof.KernelStep.lean ====
/-
  One grid point's contribution, read at an index over the extended reals.

  The body dequantizes its tile of the weight (rows `r`, 512 columns) by the cascade of selects on the code and the
  per-entry scale, and adds to the accumulator the product of the `x` tile (rows `p`, the same 512 columns) with it,
  contracting the columns: entry `(p, r)` of the accumulator grows by `sum_j x[p, j] * (cascade(q[r, j]) * scale[r, j])`.
  The two narrowings to bf16 before the product are the identity on extended reals.
-/
import proofs.«400980_j12481174962914_1_alg».proof.Proof.KernelPieces
import proofs.«400980_j12481174962914_1_alg».proof.Proof.Cascade
import Idealize.ShloMosaic.Lib.ValueIdx
import Idealize.ShloMosaic.Lib.Pipeline.Value
import Idealize.ShloMosaic.PureOps.Ideal.Laws

noncomputable section

open scoped BigOperators

namespace Cert.KernelIdeal.Pieces

open Cert.KernelIdeal Cert.KernelIdeal.Gen Idealize.ShloMosaic Idealize.ShloMosaic.ValueIdx

/-! ## The product's operand indices: rows from the output index, columns from the contraction index -/

theorem lhs_0 (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem lhs_1 (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  DotDims.lhsIdx_val_of_single _ rfl j k

theorem rhs_0 (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

theorem rhs_1 (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  DotDims.rhsIdx_val_of_single _ rfl j k

/-! ## The dequantized tile at an index -/

/-- The tile the body multiplies `x` with: at each entry, the cascade on the code times the scale. -/
theorem deq_apply (x1 : Vec Ideal S1024x512 .i32) (x2 : Vec Ideal S1024x512 .f32) (y : S1024x512.Idx) :
    k0_pay6 (F := Ideal) (k0_pay3 (F := Ideal) x1) (k0_pay4 x1) (k0_pay5 (F := Ideal) x1) x2 y
      = Cert.Spec.cascade (x1 y) * x2 y := by
  unfold k0_pay6 k0_pay5 k0_pay4 k0_pay3
  simp only [shapeCast_self]
  rfl

/-! ## The point's contribution at an index -/

theorem step_apply (x0 : Vec Ideal S1024x512 .f32) (x1 : Vec Ideal S1024x512 .i32) (x2 : Vec Ideal S1024x512 .f32)
    (acc : Vec Ideal S1024x1024 .f32) (p r : Fin 1024) :
    step (F := Ideal) x0 x1 x2 acc (ix2 p r)
      = acc (ix2 p r) + ∑ j : Fin 512, x0 (ix2 p j) * (Cert.Spec.cascade (x1 (ix2 r j)) * x2 (ix2 r j)) := by
  have h1 : step (F := Ideal) x0 x1 x2 acc (ix2 p r)
      = acc (ix2 p r) + FloatOps.matmul dot_S1024x512_S1024x512_S1024x1024_1_1_0_0_n_n none (truncf .bf16 x0 bitsLt_bf16_f32)
          (k0_pay6 (F := Ideal) (k0_pay3 (F := Ideal) x1) (k0_pay4 x1) (k0_pay5 (F := Ideal) x1) x2)
          (constant S1024x1024 .f32 0x00000000#32) (ix2 p r) := by
    simp only [step, k0_pay1, shapeCast_self]
    rfl
  rw [h1, Ideal.matmul_constant_zero_apply]
  congr 1
  rw [← Equiv.sum_comp (contrEquiv1 dot_S1024x512_S1024x512_S1024x1024_1_1_0_0_n_n 512 rfl rfl).symm]
  refine Finset.sum_congr rfl fun j _ => ?_
  have hl : dot_S1024x512_S1024x512_S1024x1024_1_1_0_0_n_n.lhsIdx (ix2 p r) ((contrEquiv1 dot_S1024x512_S1024x512_S1024x1024_1_1_0_0_n_n 512 rfl rfl).symm j) = ix2 p j := by
    funext a; refine Fin.ext ?_
    match a with
    | ⟨0, _⟩ => exact lhs_0 _ _
    | ⟨1, _⟩ => exact (lhs_1 _ _).trans (contrEquiv1_symm_val dot_S1024x512_S1024x512_S1024x1024_1_1_0_0_n_n 512 rfl rfl j)
  have hr : dot_S1024x512_S1024x512_S1024x1024_1_1_0_0_n_n.rhsIdx (ix2 p r) ((contrEquiv1 dot_S1024x512_S1024x512_S1024x1024_1_1_0_0_n_n 512 rfl rfl).symm j) = ix2 r j := by
    funext a; refine Fin.ext ?_
    match a with
    | ⟨0, _⟩ => exact rhs_0 _ _
    | ⟨1, _⟩ => exact (rhs_1 _ _).trans (contrEquiv1_symm_val dot_S1024x512_S1024x512_S1024x1024_1_1_0_0_n_n 512 rfl rfl j)
  rw [hl, hr, deq_apply]
  rfl

end Cert.KernelIdeal.Pieces

end
-- ==== Proof.KernelInv.lean ====
/-
  The accumulator after each grid point is a partial contraction.

  The grid is 16 x 4 x 8 (row tiles of `x`, row tiles of the weight, column tiles), walked row-major, so point `n` is at
  row tile `n / 32`, weight tile `n / 8 % 4` and column tile `n % 8`; the innermost eight points share their output tile.
  Entry `(p, r)` of the accumulator after point `n` is the sum of the first `512 * (n % 8 + 1)` terms of the contraction
  for output row `P = 1024 (n / 32) + p` and weight row `o = 1024 (n / 8 % 4) + r`: the first point of a run of eight starts
  from zero, each later one adds its 512 terms to what the point before left. By induction on the point.
-/
import proofs.«400980_j12481174962914_1_alg».proof.Proof.KernelStep
import Mathlib.Data.Fintype.BigOperators
import Mathlib.Algebra.BigOperators.Group.Finset.Basic

noncomputable section

open scoped BigOperators

namespace Cert.KernelIdeal.Pieces

open Cert.KernelIdeal Cert.KernelIdeal.Gen Idealize.ShloMosaic Idealize.ShloMosaic.TcCoe Idealize.ShloMosaic.ValueIdx

variable (m : (ℓ : Loc nD τ sig) → Buf (Elt Ideal) ℓ)

/-! ## The three arrays the region reads, and the blocks of a point, at their literal types -/

/-- `x` as a matrix of 16384 rows. -/
abbrev Xa (c : Dev nD) : Vec Ideal S16384x4096 .f32 := V m c main_v0
/-- The codes as a 4096 x 4096 matrix. -/
abbrev Qa (c : Dev nD) : Vec Ideal S4096x4096 .i32 := V m c main_v1
/-- The scales, one per weight entry. -/
abbrev Sa (c : Dev nD) : Vec Ideal S4096x4096 .f32 := V m c main_v4

abbrev xblk (c : Dev nD) (t : Fin cfg0.N) : Vec Ideal S1024x512 .f32 := iblk m c 0 t
abbrev qblk (c : Dev nD) (t : Fin cfg0.N) : Vec Ideal S1024x512 .i32 := iblk m c 1 t
abbrev sblk (c : Dev nD) (t : Fin cfg0.N) : Vec Ideal S1024x512 .f32 := iblk m c 2 t

/-- Which tile of each array a point's blocks are: decided over the grid's 512 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 32 ∧ win0_3.index t (1 : Fin 2) = t.val / 8 % 4 :=
  (by decide +kernel : ∀ t : Fin grid0.N, _)

/-- The `x` block of point `t`: rows `1024 (t / 32) + p`, columns `512 (t % 8) + j`. -/
theorem xblk_apply (c : Dev nD) (t : Fin cfg0.N) (p : Fin 1024) (j : Fin 512) (P : Fin 16384) (i : Fin 4096)
    (hP : P.val = 1024 * (t.val / 32) + p.val) (hi : i.val = 512 * (t.val % 8) + j.val) :
    xblk m c t (ix2 p j) = Xa m c (ix2 P i) := by
  unfold xblk iblk
  rw [View.read_apply]
  show V m c main_v0 _ = V m c main_v0 _
  congr 1
  funext a
  apply Fin.ext
  match a with
  | ⟨0, _⟩ => show win0_0.index t 0 * 1024 + 1 * p.val = P.val; rw [(idx_facts t).1, hP]; omega
  | ⟨1, _⟩ => show win0_0.index t 1 * 512 + 1 * j.val = i.val; rw [(idx_facts t).2.1, hi]; omega

/-- The code block of point `t`: weight rows `1024 (t / 8 % 4) + r`, the same columns. -/
theorem qblk_apply (c : Dev nD) (t : Fin cfg0.N) (r : Fin 1024) (j : Fin 512) (o : Fin 4096) (i : Fin 4096)
    (ho : o.val = 1024 * (t.val / 8 % 4) + r.val) (hi : i.val = 512 * (t.val % 8) + j.val) :
    qblk m c t (ix2 r j) = Qa m c (ix2 o i) := by
  unfold qblk iblk
  rw [View.read_apply]
  show V m c main_v1 _ = V m c main_v1 _
  congr 1
  funext a
  apply Fin.ext
  match a with
  | ⟨0, _⟩ => show win0_1.index t 0 * 1024 + 1 * r.val = o.val; rw [(idx_facts t).2.2.1, ho]; omega
  | ⟨1, _⟩ => show win0_1.index t 1 * 512 + 1 * j.val = i.val; rw [(idx_facts t).2.2.2.1, hi]; omega

/-- The scale block of point `t`: the same tile of the scales. -/
theorem sblk_apply (c : Dev nD) (t : Fin cfg0.N) (r : Fin 1024) (j : Fin 512) (o : Fin 4096) (i : Fin 4096)
    (ho : o.val = 1024 * (t.val / 8 % 4) + r.val) (hi : i.val = 512 * (t.val % 8) + j.val) :
    sblk m c t (ix2 r j) = Sa m c (ix2 o i) := by
  unfold sblk iblk
  rw [View.read_apply]
  show V m c main_v4 _ = V m c main_v4 _
  congr 1
  funext a
  apply Fin.ext
  match a with
  | ⟨0, _⟩ => show win0_2.index t 0 * 1024 + 1 * r.val = o.val; rw [(idx_facts t).2.2.2.2.1, ho]; omega
  | ⟨1, _⟩ => show win0_2.index t 1 * 512 + 1 * j.val = i.val; rw [(idx_facts t).2.2.2.2.2.1, hi]; omega

/-! ## The contraction's terms, and a point's 512 of them -/

/-- Term `i` of the contraction for output row `P` and weight row `o` (zero past the axis' end, so that partial sums can be
    taken over ranges of naturals). -/
def term (c : Dev nD) (P : Fin 16384) (o : Fin 4096) (i : ℕ) : EReal :=
  if h : i < 4096 then
    Xa m c (ix2 P ⟨i, h⟩) * (Cert.Spec.cascade (Qa m c (ix2 o ⟨i, h⟩)) * Sa m c (ix2 o ⟨i, h⟩))
  else 0

/-- What point `t` adds at entry `(p, r)`: terms `512 (t % 8) … 512 (t % 8) + 511` of that entry's contraction. -/
theorem point_sum (c : Dev nD) (t : Fin cfg0.N) (p r : Fin 1024) (P : Fin 16384) (o : Fin 4096)
    (hP : P.val = 1024 * (t.val / 32) + p.val) (ho : o.val = 1024 * (t.val / 8 % 4) + r.val) :
    ∑ j : Fin 512, xblk m c t (ix2 p j) * (Cert.Spec.cascade (qblk m c t (ix2 r j)) * sblk m c t (ix2 r j))
      = ∑ j : Fin 512, term m c P o (512 * (t.val % 8) + j.val) := by
  refine Finset.sum_congr rfl fun j _ => ?_
  have hlt : 512 * (t.val % 8) + j.val < 4096 := by have := j.isLt; omega
  rw [term, dif_pos hlt, xblk_apply m c t p j P ⟨_, hlt⟩ hP rfl, qblk_apply m c t r j o ⟨_, hlt⟩ ho rfl,
    sblk_apply m c t r j o ⟨_, hlt⟩ ho rfl]

/-- The first `512 (k + 1)` terms are the first `512 k` and the next 512. -/
theorem range_block (f : ℕ → EReal) (k : ℕ) :
    ∑ i ∈ Finset.range (512 * (k + 1)), f i
      = ∑ i ∈ Finset.range (512 * k), f i + ∑ j : Fin 512, f (512 * k + j.val) := by
  rw [Nat.mul_succ, Finset.sum_range_add, Fin.sum_univ_eq_sum_range (fun x => f (512 * k + x)) 512]

/-! ## The accumulator, point by point -/

/-- The zero block the first point of a run stores is zero at every entry. -/
theorem zero_apply (y : S1024x1024.Idx) : k0_pay2 (F := Ideal) y = 0 := by
  unfold k0_pay2
  simp only [shapeCast_self]
  exact Ideal.ofBits_zero_f32

/-- At the first point of a run of eight the accumulator is left at zero plus the point's terms. -/
theorem acc_first (c : Dev nD) (t : Fin cfg0.N) (h0 : t.val % 8 = 0) (p r : Fin 1024) :
    (outsAt0 m c t.val t.isLt).2 (ix2 p r)
      = 0 + ∑ j : Fin 512, xblk m c t (ix2 p j) * (Cert.Spec.cascade (qblk m c t (ix2 r j)) * sblk m c t (ix2 r j)) := by
  have h1 : ¬t.val % 8 = 7 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) _ _
    (xblk m c t) (qblk m c t) (sblk m c t)) (ix2 p r)).trans ?_
  refine (step_apply (xblk m c t) (qblk m c t) (sblk m c t) _ p r).trans ?_
  rw [zero_apply]

/-- At every other point it is left at what the point before left plus the point's terms. -/
theorem acc_next (c : Dev nD) (t : Fin cfg0.N) (h0 : ¬t.val % 8 = 0) (p r : Fin 1024) :
    (outsAt0 m c t.val t.isLt).2 (ix2 p r)
      = (outsAt0 m c (t.val - 1) (Nat.lt_of_le_of_lt (Nat.sub_le _ _) t.isLt)).2 (ix2 p r)
        + ∑ j : Fin 512, xblk m c t (ix2 p j) * (Cert.Spec.cascade (qblk m c t (ix2 r j)) * sblk m c t (ix2 r j)) := by
  by_cases h1 : t.val % 8 = 7
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) scM0_0 (Memref.isWhole_whole _) _ _
      (xblk m c t) (qblk m c t) (sblk m c t) _) (ix2 p r)).trans ?_
    exact step_apply (xblk m c t) (qblk m c t) (sblk m c t) _ p r
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) scM0_0 (Memref.isWhole_whole _) _ _
      (xblk m c t) (qblk m c t) (sblk m c t) _) (ix2 p r)).trans ?_
    exact step_apply (xblk m c t) (qblk m c t) (sblk m c t) _ p r

/-- THE INVARIANT: after point `n` the accumulator's entry `(p, r)` is the sum of the first `512 (n % 8 + 1)` terms of the
    contraction for output row `1024 (n / 32) + p` and weight row `1024 (n / 8 % 4) + r`. -/
theorem acc_eq (c : Dev nD) : ∀ (n : ℕ) (h : n < cfg0.N) (p r : Fin 1024) (P : Fin 16384) (o : Fin 4096),
    P.val = 1024 * (n / 32) + p.val → o.val = 1024 * (n / 8 % 4) + r.val →
    (outsAt0 m c n h).2 (ix2 p r) = ∑ i ∈ Finset.range (512 * (n % 8 + 1)), term m c P o i := by
  intro n
  induction n with
  | zero =>
    intro h p r P o hP ho
    rw [acc_first m c ⟨0, h⟩ rfl p r, point_sum m c ⟨0, h⟩ p r P o hP ho, zero_add]
    show ∑ j : Fin 512, term m c P o (512 * 0 + j.val) = ∑ i ∈ Finset.range (512 * (0 + 1)), term m c P o i
    rw [range_block, Nat.mul_zero, Finset.range_zero, Finset.sum_empty, zero_add]
  | succ n ih =>
    intro h p r P o hP ho
    by_cases h0 : (n + 1) % 8 = 0
    · rw [acc_first m c ⟨n + 1, h⟩ h0 p r, point_sum m c ⟨n + 1, h⟩ p r P o hP ho, zero_add]
      show ∑ j : Fin 512, term m c P o (512 * ((n + 1) % 8) + j.val) = _
      rw [h0]
      show _ = ∑ i ∈ Finset.range (512 * (0 + 1)), term m c P o i
      rw [range_block, Nat.mul_zero, Finset.range_zero, Finset.sum_empty, zero_add]
    · have hP' : P.val = 1024 * (n / 32) + p.val := by omega
      have ho' : o.val = 1024 * (n / 8 % 4) + r.val := by omega
      have hk : (n + 1) % 8 = n % 8 + 1 := by omega
      rw [acc_next m c ⟨n + 1, h⟩ h0 p r, point_sum m c ⟨n + 1, h⟩ p r P o hP ho]
      show (outsAt0 m c n _).2 (ix2 p r) + ∑ j : Fin 512, term m c P o (512 * ((n + 1) % 8) + j.val) = _
      rw [ih (Nat.lt_of_succ_lt h) p r P o hP' ho', hk, range_block (term m c P o) (n % 8 + 1)]

end Cert.KernelIdeal.Pieces

end
-- ==== Proof.KernelValue.lean ====
/-
  The idealized kernel's run, read as a value: its result array is the specification's function of its arguments.

  The region writes an output tile back once per run of eight points, after the last, when the accumulator holds all
  `512 * 8 = 4096` terms of every entry's contraction (Proof/KernelInv.lean); the 16 x 4 output tiles tile the
  16384 x 4096 product matrix, so after the region that matrix is, entry by entry, the contraction of a row of `x` (as a
  matrix of 16384 rows) with a row of the dequantized weight. Around the region the program only re-lays arrays: `x`
  flattened to 16384 rows, the codes laid out 4096 x 4096, each scale repeated along its run of 64 entries, and the product
  matrix cut back into 8 x 2048 rows. Read at an index, each of these is a row-major position computed two ways; and on the
  codes' range the cascade of selects is the codebook lookup (Proof/Cascade.lean).
-/
import proofs.«400980_j12481174962914_1_alg».proof.Proof.KernelInv
import proofs.«400980_j12481174962914_1_alg».proof.Proof.Spec
import Idealize.ShloMosaic.Lib.Pipeline.Value
import Idealize.ShloMosaic.Lib.StableHlo.Run
import Idealize.ShloMosaic.Lib.ValueIdx

noncomputable section

open scoped BigOperators

namespace Cert.KernelValue

open Cert.KernelIdeal Cert.KernelIdeal.Gen Cert.KernelIdeal.Pieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The product matrix, tile by tile -/

/-- At the last point of a run of eight the output block holds what the accumulator holds. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) _ _
      (xblk m c t) (qblk m c t) (sblk m c t) _).trans
    (sout_C (F := Ideal) c (grid0.coords t) (ms0_0 t) (hs0_0 t) (ms0_1 t) (hs0_1 t) (ms0_2 t) (hs0_2 t) (ms0_3 t) (hs0_3 t) scM0_0 (Memref.isWhole_whole _) _ _
      (xblk m c t) (qblk m c t) (sblk m c t) _).symm

/-- The product matrix: entry `(P, o)` is the whole contraction of row `P` of `x` with row `o` of the weight. -/
def Y (c : Dev nD) : Vec Ideal S16384x4096 .f32 :=
  fun i => ∑ k ∈ Finset.range 4096, term m c ⟨(i 0).val, idx2_lt0 i⟩ ⟨(i 1).val, idx2_lt1 i⟩ k

theorem Y_apply (c : Dev nD) (i : S16384x4096.Idx) (P : Fin 16384) (o : Fin 4096)
    (hP : (i 0).val = P.val) (ho : (i 1).val = o.val) :
    Y m c i = ∑ k ∈ Finset.range 4096, term m c P o k := by
  obtain rfl : P = ⟨(i 0).val, idx2_lt0 i⟩ := Fin.ext hP.symm
  obtain rfl : o = ⟨(i 1).val, idx2_lt1 i⟩ := Fin.ext ho.symm
  rfl

/-- What a writing point writes back is its tile of the product matrix. -/
theorem flushed_eq (c : Dev nD) (t : Fin cfg0.N) (hf : (cfg0.win 3).flush t = true) :
    (dats m 0 c).flushed 3 t = ((cfg0.win 3).blk t).view.read (Elt Ideal) (Y m c) := by
  have h1 : t.val % 8 = 7 := (flush0_3 t).mp hf
  have hN : t.val < 512 := lt_of_lt_of_eq t.isLt (show cfg0.N = 512 from N_0)
  show (cfg0.win 3).cut (grid0.coords t) ((dats m 0 c).after 3 t) = _
  rw [after0_3, out_last m c t h1]
  funext y
  obtain ⟨p, r, rfl⟩ : ∃ (p r : Fin 1024), y = ix2 p r := ⟨y 0, y 1, eq_ix2 y⟩
  have hP : 1024 * (t.val / 32) + p.val < 16384 := by have := p.isLt; omega
  have ho : 1024 * (t.val / 8 % 4) + r.val < 4096 := by have := r.isLt; omega
  rw [View.read_apply]
  show (outsAt0 m c t.val t.isLt).2 (ix2 p r) = Y m c (((cfg0.win 3).blk t).view.emb (ix2 p r))
  have e0 : ((((cfg0.win 3).blk t).view.emb (ix2 p r) : S16384x4096.Idx) 0).val = 1024 * (t.val / 32) + p.val := by
    show win0_3.index t (0 : Fin 2) * 1024 + 1 * p.val = _
    rw [(idx_facts t).2.2.2.2.2.2.1]; omega
  have e1 : ((((cfg0.win 3).blk t).view.emb (ix2 p r) : S16384x4096.Idx) 1).val = 1024 * (t.val / 8 % 4) + r.val := by
    show win0_3.index t (1 : Fin 2) * 1024 + 1 * r.val = _
    rw [(idx_facts t).2.2.2.2.2.2.2]; omega
  rw [acc_eq m c t.val t.isLt p r ⟨_, hP⟩ ⟨_, ho⟩ rfl rfl, h1]
  exact (Y_apply m c _ ⟨_, hP⟩ ⟨_, ho⟩ e0 e1).symm

/-- An index of the product matrix is in point `t`'s tile iff each coordinate is in the tile's range. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Every entry of the product matrix is in the tile of a writing point: the last point of the run of eight for the
    entry's row tile and weight tile. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hn : ((i 0).val / 1024 * 4 + (i 1).val / 1024) * 8 + 7 < cfg0.N := by
    rw [show cfg0.N = 512 from N_0]; omega
  refine ⟨⟨_, hn⟩, (flush0_3 _).mpr (by show (((i 0).val / 1024 * 4 + (i 1).val / 1024) * 8 + 7) % 8 = 7; omega), ?_⟩
  rw [mem_blk]
  intro a
  have e6 : win0_3.index ⟨_, hn⟩ (0 : Fin 2) = (((i 0).val / 1024 * 4 + (i 1).val / 1024) * 8 + 7) / 32 :=
    (idx_facts ⟨_, hn⟩).2.2.2.2.2.2.1
  have e7 : win0_3.index ⟨_, hn⟩ (1 : Fin 2) = (((i 0).val / 1024 * 4 + (i 1).val / 1024) * 8 + 7) / 8 % 4 :=
    (idx_facts ⟨_, hn⟩).2.2.2.2.2.2.2
  match a with
  | ⟨0, _⟩ =>
    show win0_3.index ⟨_, hn⟩ (0 : Fin 2) * 1024 ≤ (i 0).val ∧ (i 0).val < win0_3.index ⟨_, hn⟩ (0 : Fin 2) * 1024 + 1024
    rw [e6]; omega
  | ⟨1, _⟩ =>
    show win0_3.index ⟨_, hn⟩ (1 : Fin 2) * 1024 ≤ (i 1).val ∧ (i 1).val < win0_3.index ⟨_, hn⟩ (1 : Fin 2) * 1024 + 1024
    rw [e7]; omega

/-- After the region the output array is the product matrix. -/
theorem final (c : Dev nD) : (dats m 0 c).arrAt 3 cfg0.N = Y m c :=
  (dats m 0 c).arrAt_eq_of_cover 3 (Y m c) (flushed_eq m c) cover

/-! ## The arrays the region reads, as re-layings of the arguments -/

/-- `x` flattened to 16384 rows: row `2048 b + s` is row `(b, s)`. -/
theorem Xa_apply (c : Dev nD) (b : Fin 8) (s : Fin 2048) (i : Fin 4096) (P : Fin 16384) (hP : P.val = 2048 * b.val + s.val) :
    Xa m c (ix2 P i) = (m ((c : Thread nD τ).loc main_arg0) : Vec Ideal S8x2048x4096 .f32) (ix3 b s i) := by
  have e : Xa m c = shapeCast S16384x4096 (m ((c : Thread nD τ).loc main_arg0) : Vec Ideal S8x2048x4096 .f32)
      shapeCasts_S8x2048x4096_S16384x4096 := by
    show StableHlo.after hostOps0 (fun b => m (c, b)) (Proc.devRef .tc main_v0) = _
    after_results
    rfl
  rw [e, shapeCast_apply _ _ (ix2 P i) (ix3 b s i) (by
    rw [Shape.rowMajor_val_three, Shape.rowMajor_val_two]
    show (b.val * 2048 + s.val) * 4096 + i.val = P.val * 4096 + i.val
    omega)]

/-- The codes laid out 4096 x 4096: entry `(o, i)` is flat position `4096 o + i`. -/
theorem Qa_apply (c : Dev nD) (o i : Fin 4096) (k : Fin 16777216) (hk : k.val = 4096 * o.val + i.val) :
    Qa m c (ix2 o i) = (m ((c : Thread nD τ).loc main_arg1) : Vec Ideal S16777216 .i32) (ix1 k) := by
  have e : Qa m c = shapeCast S4096x4096 (m ((c : Thread nD τ).loc main_arg1) : Vec Ideal S16777216 .i32)
      shapeCasts_S16777216_S4096x4096 := by
    show StableHlo.after hostOps0 (fun b => m (c, b)) (Proc.devRef .tc main_v1) = _
    after_results
    rfl
  rw [e, shapeCast_apply _ _ (ix2 o i) (ix1 k) (by
    rw [Shape.rowMajor_val_one, Shape.rowMajor_val_two]
    show k.val = o.val * 4096 + i.val
    omega)]

/-- The scales, one per weight entry: entry `(o, i)` carries the scale of its run of 64, number `64 o + i / 64`. -/
theorem Sa_apply (c : Dev nD) (o i : Fin 4096) (k : Fin 262144) (hk : k.val = 64 * o.val + i.val / 64) :
    Sa m c (ix2 o i) = (m ((c : Thread nD τ).loc main_arg2) : Vec Ideal S262144 .f32) (ix1 k) := by
  have e : Sa m c = shapeCast S4096x4096 (broadcastInDim S4096x64x64 ![0, 1] bcast_S4096x64_S4096x64x64_0_1
      (shapeCast S4096x64 (m ((c : Thread nD τ).loc main_arg2) : Vec Ideal S262144 .f32) shapeCasts_S262144_S4096x64))
      shapeCasts_S4096x64x64_S4096x4096 := by
    show StableHlo.after hostOps0 (fun b => m (c, b)) (Proc.devRef .tc main_v4) = _
    after_results
    rfl
  have hi := i.isLt
  have ho := o.isLt
  have h64 : i.val / 64 < 64 := by omega
  have h63 : i.val % 64 < 64 := by omega
  rw [e, shapeCast_apply _ _ (ix2 o i) (ix3 o (⟨i.val / 64, h64⟩ : Fin 64) (⟨i.val % 64, h63⟩ : Fin 64)) (by
    rw [Shape.rowMajor_val_three, Shape.rowMajor_val_two]
    show (o.val * 64 + i.val / 64) * 64 + i.val % 64 = o.val * 4096 + i.val
    omega)]
  rw [broadcastInDim_apply _ _ _ _ (ix2 o (⟨i.val / 64, h64⟩ : Fin 64)) (fun a => by
    match a with
    | ⟨0, _⟩ => rfl
    | ⟨1, _⟩ => rfl)]
  rw [shapeCast_apply _ _ (ix2 o (⟨i.val / 64, h64⟩ : Fin 64)) (ix1 k) (by
    rw [Shape.rowMajor_val_one, Shape.rowMajor_val_two]
    show k.val = o.val * 64 + i.val / 64
    omega)]

/-! ## After the region: the product matrix cut back into 8 x 2048 rows -/

theorem tail_eq (c : Dev nD) :
    (Pipeline.afterTail₀ cfgs (dats m) 0 (V0 m) [hostOps1] c main_v6 : Vec Ideal S8x2048x4096 .f32)
      = shapeCast S8x2048x4096 (Y m c) shapeCasts_S16384x4096_S8x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = Y m c :=
    (Pipeline.withArrays_arr spec0 launch0.win.arr_inj c _ _ 3).trans (final m c)
  rw [e]
  rfl

/-! ## The whole result -/

/-- With every code in `0 .. 15`, the re-laid product matrix is the specification's function of the three arguments. -/
theorem value_eq (c : Dev nD)
    (hq : ∀ i, 0 ≤ ((m ((c.tc : Thread nD τ).loc main_arg1) : IVec S16777216 32) i).toInt
      ∧ ((m ((c.tc : Thread nD τ).loc main_arg1) : IVec S16777216 32) i).toInt < 16) :
    shapeCast S8x2048x4096 (Y m c) shapeCasts_S16384x4096_S8x2048x4096
      = Cert.Spec.G (m ((c.tc : Thread nD τ).loc main_arg0)) (m ((c.tc : Thread nD τ).loc main_arg1))
          (m ((c.tc : Thread nD τ).loc main_arg2)) := by
  funext j
  obtain ⟨b, s, o, rfl⟩ : ∃ (b : Fin 8) (s : Fin 2048) (o : Fin 4096), j = ix3 b s o := ⟨j 0, j 1, j 2, eq_ix3 j⟩
  have hb := b.isLt
  have hs := s.isLt
  have hoo := o.isLt
  have hP : 2048 * b.val + s.val < 16384 := by omega
  rw [shapeCast_apply _ _ (ix3 b s o) (ix2 (⟨2048 * b.val + s.val, hP⟩ : Fin 16384) o) (by
    rw [Shape.rowMajor_val_two, Shape.rowMajor_val_three]
    show (2048 * b.val + s.val) * 4096 + o.val = (b.val * 2048 + s.val) * 4096 + o.val
    omega)]
  rw [Y_apply m c _ ⟨_, hP⟩ o rfl rfl]
  show _ = Cert.Spec.out _ _ _ b s o
  unfold Cert.Spec.out
  rw [← Fin.sum_univ_eq_sum_range (fun k => term m c ⟨_, hP⟩ o k) 4096]
  refine Finset.sum_congr rfl fun i _ => ?_
  have hi := i.isLt
  have hk : 4096 * o.val + i.val < 16777216 := by omega
  have hr : 64 * o.val + i.val / 64 < 262144 := by omega
  rw [term, dif_pos i.isLt, Xa_apply m c b s i ⟨_, hP⟩ rfl, Qa_apply m c o i ⟨_, hk⟩ rfl, Sa_apply m c o i ⟨_, hr⟩ rfl,
    Cert.Spec.cascade_eq _ (hq _).1 (hq _).2]
  rfl

/-- From any memory whose code array lies in `0 .. 15`: every weakly fair execution of the idealized kernel's program
    terminates with its result array at the specification's function of the three argument arrays, and the arguments
    unchanged. -/
theorem run (m : (ℓ : Loc nD τ sig) → Buf (Elt Ideal) ℓ) (ρ : Dev nD → PrngReg)
    (hq : ∀ (c : Dev nD) i, 0 ≤ ((m ((c.tc : Thread nD τ).loc main_arg1) : IVec S16777216 32) i).toInt
      ∧ ((m ((c.tc : Thread nD τ).loc main_arg1) : IVec S16777216 32) i).toInt < 16) :
    θ_run (defs (F := Ideal)) (onTc (τ := τ) (main (F := Ideal))) ⟨m, fun _ => 0, ρ⟩ fun r => ∀ c : Dev nD,
      r.2.mem ((c.tc : Thread nD τ).loc main_v6)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v6 (Pipeline.mem_restRefs_of main_v6 (by decide) (by decide))).trans
          ((tail_eq m c).trans (value_eq m c (hq c))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelValue

end
-- ==== Proof.lean ====
/-
  The kernel computes a linear layer whose weight matrix is stored 4-bit quantized (NF4): every weight entry is a code into
  a fixed sixteen-entry codebook, scaled by one factor per run of 64 consecutive entries. The kernel dequantizes a tile of
  the weight by a cascade of sixteen selects on the code, multiplies by the scales (expanded outside the kernel to one per
  entry), and accumulates the product with a tile of `x` over the eight tiles of the contraction axis in a scratch
  accumulator, writing the output tile after the last. The reference looks the codes up in the codebook array, scales, and
  takes one contraction over the whole axis.

  Over the extended reals both programs end at the same function of their arguments (Proof/Spec.lean `Cert.Spec.G`):
    * on the codes' range `0 <= q < 16` the cascade of selects IS the codebook lookup; outside it the two differ (the
      cascade leaves `0`, the lookup clamps), which is why the precondition carries the codes' range;
    * a change of float format is the identity, so the kernel's bf16 operands are its f32 ones;
    * the kernel's eight partial contractions, added in order onto a zero accumulator, are the one contraction over the
      whole axis: addition of extended reals is commutative and associative, and nothing else is used (no distributivity,
      so finiteness of the float inputs is never opened).
  The frames of the two kernel programs are the generated ones; the reference's frame is its run (Proof/RefValue.lean)
  with the result dropped.
-/
import proofs.«400980_j12481174962914_1_alg».proof.Defs
import proofs.«400980_j12481174962914_1_alg».proof.Proof.Gen.Kernel
import proofs.«400980_j12481174962914_1_alg».proof.Proof.Gen.Kernel.Frame
import proofs.«400980_j12481174962914_1_alg».proof.Proof.Gen.KernelIdeal
import proofs.«400980_j12481174962914_1_alg».proof.Proof.Gen.KernelIdeal.Frame
import proofs.«400980_j12481174962914_1_alg».proof.Proof.Gen.ReferenceIdeal
import proofs.«400980_j12481174962914_1_alg».proof.Proof.Gen.Pre_finite_inputs
import proofs.«400980_j12481174962914_1_alg».proof.Proof.Domain
import proofs.«400980_j12481174962914_1_alg».proof.Proof.RefValue
import proofs.«400980_j12481174962914_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run to the specification's value, the value dropped. The run needs the codes' range
    (a negative code would be wrapped before the lookup), which the precondition gives. -/
theorem frame_ri : Cert.frame_ReferenceIdeal := fun m ρ hpre =>
  (θ_run Cert.ReferenceIdeal.defs _ _).mono (fun _ h c => (h c).2)
    (Cert.RefValue.run m ρ (fun c => Cert.Domain.code_range _ _ _ (hpre c)))

/-- Both programs end at `Cert.Spec.G` of the argument arrays; the two memories agree on those. -/
theorem algebraic : Cert.algebraic_KernelIdeal_ReferenceIdeal := by
  intro m ρ m' ρ' hpre hagree
  refine ⟨_, Cert.KernelValue.run m ρ (fun c => Cert.Domain.code_range _ _ _ (hpre c)), ?_⟩
  refine (θ_run Cert.ReferenceIdeal.defs _ _).mono (fun _ h c => ⟨(h c).1.trans ?_, (h c).2⟩)
    (Cert.RefValue.run m' ρ' (fun c => by rw [(hagree c).2.1]; exact Cert.Domain.code_range _ _ _ (hpre c)))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
